-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S256x128 : Shape := ⟨2, ![256, 128]⟩
abbrev S256x8192 : Shape := ⟨2, ![256, 8192]⟩
abbrev S256x256 : Shape := ⟨2, ![256, 256]⟩

abbrev nBuf : Space → Nat
  | .hbm => 2
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S256x8192, .f32⟩
  | .local _ .vmem, ⟨4, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c0_5 : Index := 0#32
  let arg0 : BitVec 32 := BitVec.ofNat 32 (i 0).val
  let c256_i32 : BitVec 32 := 256#32
  let v4 : BitVec 32 := Scalar.muli arg0 c256_i32
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  inb_S256x8192_S256x8192_0_0 : ∀ a, (![0, 0] : Fin 2 → Nat) a + S256x8192.size a ≤ S256x8192.size a
  h_S256x8192 : 0 < S256x8192.numel
  h_S256x256 : 0 < S256x256.numel
  shapeCasts_S256x256_S256x256 : S256x256.ShapeCasts S256x256
  iota_S256x256_d0_w32 : S256x256.Iotas .tc 32 [0]
  iota_S256x256_d1_w32 : S256x256.Iotas .tc 32 [1]
  dot_S256x128_S8192x128_S256x8192_1_1_0_0_n_n_wf : DotDims.WF S256x128 S8192x128 S256x8192 [1] [1] [0] [0] [] []
  hrank0 : 0 < grid0.rank
  k0_off1_inb : ∀ i : grid0.Coords, ∀ a, (k0_off1 i) a + S256x256.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x8192, .f32⟩
  | .hbm, ⟨2, _⟩ => ⟨S8192x8192, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Body.lean ====
/-
  The score band of one grid point, and the kernel's body as the pipeline runs it there.

  The kernel computes the Gram matrix of the rows of `h` (8192 rows of 128 numbers) with its diagonal cleared, one
  band of 256 rows per grid point. At point `t` the body holds rows `256 t … 256 t + 255` of `h` (window 0) and all
  of `h` (window 1, the same array a second time), writes the 256 × 8192 band of inner products
  `⟨h[256 t + p], h[j]⟩` into the output band (window 2), then reads back the 256 × 256 square of that band that
  starts at column `256 t` — the only part of the band the diagonal meets — and stores it again with `0` where
  the row and column numbers inside the square coincide.

  So what the body leaves in the output band is a function of the two input blocks alone: the band of products
  overlaid, on that square, by the square itself with its own diagonal cleared (`bandOut`). Nothing is kept
  between points, and the body never needs what the output buffer held before.

  The two input windows read ONE array, so each holds it at half the full share; the output array is held
  outright.
-/
import proofs.«142494_g5858335392468_pilotgen1_76_6_alg».proof.Proof.Gen.Kernel.Launch
import proofs.«142494_g5858335392468_pilotgen1_76_6_alg».proof.Proof.Gen.Kernel.Skeleton
import proofs.«142494_g5858335392468_pilotgen1_76_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Scores

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole 256 × 128 row block. -/
abbrev rRows : Rect S256x128 := Rect.unit (s := S256x128) ![0, 0] S256x128.size inb_S256x128_S256x128_0_0
/-- The whole 8192 × 128 array. -/
abbrev rAll : Rect S8192x128 := Rect.unit (s := S8192x128) ![0, 0] S8192x128.size inb_S8192x128_S8192x128_0_0
/-- The whole 256 × 8192 output band. -/
abbrev rBand : Rect S256x8192 := Rect.unit (s := S256x8192) ![0, 0] S256x8192.size inb_S256x8192_S256x8192_0_0
/-- The 256 × 256 square of the band that starts at column `256 · i`: where the band meets the diagonal. -/
abbrev rDiag (i : grid0.Coords) : Rect S256x8192 := Rect.unit (s := S256x8192) (k0_off1 i) S256x256.size (k0_off1_inb i)

/-! ## What the body leaves in the output band -/

/-- The band of products, as the one store that fills the band. -/
def prodPieces (x0 : Vec F S256x128 .f32) (x1 : Vec F S8192x128 .f32) : List (View.Piece (Elt F) S256x8192 .f32) :=
  [⟨rBand, k0_pay1 (View.ld x0 rRows) (View.ld x1 rAll)⟩]

/-- The output band after the body at grid coordinates `i`, from the row block `x0` and the whole array `x1`: the
    band of products, and over it, on the diagonal square, that square of the products with its diagonal cleared. -/
def bandOut (i : grid0.Coords) (x0 : Vec F S256x128 .f32) (x1 : Vec F S8192x128 .f32) : Vec F S256x8192 .f32 :=
  View.canon (⟨rDiag i, k0_pay2 (fun j => View.canon (prodPieces x0 x1) ((rDiag i).toLoadRect.idx j))⟩ :: prodPieces x0 x1)

/-! ## The body's triple -/

set_option maxHeartbeats 1000000 in
/-- The body on whole staging memrefs — the inputs' reading `x0`, `x1`, the output's holding anything — runs to the
    continuation with the inputs as they were and the output band at `bandOut i x0 x1`. The square it reads back is
    read off what its own first store left, so the earlier contents of the output buffer play no part. -/
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (bandOut i x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [View.read_writes_junk_eq_canon, View.readAt_writes_junk_eq_canon]
  rfl

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to the region is the region itself. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input buffer still at its
    block and the output buffer at `bandOut` of the two input blocks; between points only the scratch the kernel does
    not have; nothing owed; the shared input array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bandOut (grid0.coords t) (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = bandOut (grid0.coords t) (iblk m c 0 t) (iblk m c 1 t) := by dsimp only [dats]

/-- The row block's buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The whole array's buffer holds the whole array at every point: fetched at the first, and left in place by the
    body at every point, its block index never moving. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Scores

end
-- ==== Proof.K.Run.lean ====
/-
  The run of the program, and its frame.

  The program is one pipelined region. Its two input windows read the one argument array, so at the region's entry
  the array's full share is dealt to them half and half, and the result array goes to the output window outright;
  there is no other buffer. The region's rule then gives, for every weakly fair execution from a memory with zero
  semaphore counters: it ends, nothing faults, and each window's array holds what the write-backs of the proof data
  compute. An input window's array is never written, so the argument array ends as it began: the frame.
-/
import proofs.«142494_g5858335392468_pilotgen1_76_6_alg».proof.Proof.K.Body
import Idealize.ShloMosaic.Lib.Pipeline.Launch

noncomputable section

namespace Cert.Kernel.Scores

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The two buffers behind the three windows, each whole at the full share, are the windows' arrays at their shares:
    the argument array's full share is its left half, for the row-block window, and its right half, for the
    whole-array window; the result array is the output window's. -/
theorem split_arrays (c : Dev nD) :
    (Pipeline.arrBufs spec0 c (V m c) : sProp 𝕄) ⊢ (dats m 0 c).arrays ((dats m 0 c).arrAt · 0) := by
  have hA : (dats m 0 c).arrays ((dats m 0 c).arrAt · 0)
      = bigSep Finset.univ fun w : Fin 3 =>
          ((((c.tc : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  have hB : (Pipeline.arrBufs spec0 c (V m c) : sProp 𝕄)
      = iprop((((c.tc : Thread nD τ).loc main_arg0) ↦{fullShare} V m c main_arg0)
          ∗ (((c.tc : Thread nD τ).loc main_v0) ↦{fullShare} V m c main_v0)) := by
    unfold Pipeline.arrBufs
    rw [show Finset.univ.image (Pipeline.arrRef spec0) = {main_arg0, main_v0} from by decide,
      BI.bigSep_insert (by decide), BI.bigSep_singleton]
    rfl
  rw [hA, bigSep_W0, hB]
  iintro ⟨Ha, Ho⟩
  ihave Ha := (pointsTo_share (PosShare.mem_left_op_right fullShare)).1 $$ Ha
  icases Ha with ⟨Hl, Hr⟩
  isplitl [Hl]; · iexact Hl
  isplitl [Hr]; · iexact Hr
  iexact Ho

/-! ## The run -/

/-- After the run every window's array holds what the proof data's write-backs compute. -/
def RunPost (r : PUnit × MemSt nD τ sig (Elt F)) : Prop :=
  ∀ (c : Dev nD) (w : Fin 3), r.2.mem ((spec0 w).arr.view.loc (c.tc : Thread nD τ)) = (dats m 0 c).arrAt w cfg0.N

set_option backward.isDefEq.respectTransparency.types false in
/-- At the compiled mesh, from any memory with zero counters: every weakly fair execution terminates, nothing
    faults, and the final memory satisfies `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m)
    (hmain := hmain m Variants.none)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.Kernel.Scores.run_main' depends on axioms: [propext, Classical.choice, Quot.sound] -/
#guard_msgs in #print axioms run_main

/-! ## The frame -/

/-- The argument array ends as it began: it is only ever an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

end Cert.Kernel.Scores

end
-- ==== Proof.KI.Body.lean ====
/-
  The score band of one grid point, and the kernel's body as the pipeline runs it there.

  The kernel computes the Gram matrix of the rows of `h` (8192 rows of 128 numbers) with its diagonal cleared, one
  band of 256 rows per grid point. At point `t` the body holds rows `256 t … 256 t + 255` of `h` (window 0) and all
  of `h` (window 1, the same array a second time), writes the 256 × 8192 band of inner products
  `⟨h[256 t + p], h[j]⟩` into the output band (window 2), then reads back the 256 × 256 square of that band that
  starts at column `256 t` — the only part of the band the diagonal meets — and stores it again with `0` where
  the row and column numbers inside the square coincide.

  So what the body leaves in the output band is a function of the two input blocks alone: the band of products
  overlaid, on that square, by the square itself with its own diagonal cleared (`bandOut`). Nothing is kept
  between points, and the body never needs what the output buffer held before.

  The two input windows read ONE array, so each holds it at half the full share; the output array is held
  outright.
-/
import proofs.«142494_g5858335392468_pilotgen1_76_6_alg».proof.Proof.Gen.KernelIdeal.Launch
import proofs.«142494_g5858335392468_pilotgen1_76_6_alg».proof.Proof.Gen.KernelIdeal.Skeleton
import proofs.«142494_g5858335392468_pilotgen1_76_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Scores

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole 256 × 128 row block. -/
abbrev rRows : Rect S256x128 := Rect.unit (s := S256x128) ![0, 0] S256x128.size inb_S256x128_S256x128_0_0
/-- The whole 8192 × 128 array. -/
abbrev rAll : Rect S8192x128 := Rect.unit (s := S8192x128) ![0, 0] S8192x128.size inb_S8192x128_S8192x128_0_0
/-- The whole 256 × 8192 output band. -/
abbrev rBand : Rect S256x8192 := Rect.unit (s := S256x8192) ![0, 0] S256x8192.size inb_S256x8192_S256x8192_0_0
/-- The 256 × 256 square of the band that starts at column `256 · i`: where the band meets the diagonal. -/
abbrev rDiag (i : grid0.Coords) : Rect S256x8192 := Rect.unit (s := S256x8192) (k0_off1 i) S256x256.size (k0_off1_inb i)

/-! ## What the body leaves in the output band -/

/-- The band of products, as the one store that fills the band. -/
def prodPieces (x0 : Vec F S256x128 .f32) (x1 : Vec F S8192x128 .f32) : List (View.Piece (Elt F) S256x8192 .f32) :=
  [⟨rBand, k0_pay1 (View.ld x0 rRows) (View.ld x1 rAll)⟩]

/-- The output band after the body at grid coordinates `i`, from the row block `x0` and the whole array `x1`: the
    band of products, and over it, on the diagonal square, that square of the products with its diagonal cleared. -/
def bandOut (i : grid0.Coords) (x0 : Vec F S256x128 .f32) (x1 : Vec F S8192x128 .f32) : Vec F S256x8192 .f32 :=
  View.canon (⟨rDiag i, k0_pay2 (fun j => View.canon (prodPieces x0 x1) ((rDiag i).toLoadRect.idx j))⟩ :: prodPieces x0 x1)

/-! ## The body's triple -/

set_option maxHeartbeats 1000000 in
/-- The body on whole staging memrefs — the inputs' reading `x0`, `x1`, the output's holding anything — runs to the
    continuation with the inputs as they were and the output band at `bandOut i x0 x1`. The square it reads back is
    read off what its own first store left, so the earlier contents of the output buffer play no part. -/
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (bandOut i x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [View.read_writes_junk_eq_canon, View.readAt_writes_junk_eq_canon]
  rfl

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to the region is the region itself. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input buffer still at its
    block and the output buffer at `bandOut` of the two input blocks; between points only the scratch the kernel does
    not have; nothing owed; the shared input array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bandOut (grid0.coords t) (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = bandOut (grid0.coords t) (iblk m c 0 t) (iblk m c 1 t) := by dsimp only [dats]

/-- The row block's buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The whole array's buffer holds the whole array at every point: fetched at the first, and left in place by the
    body at every point, its block index never moving. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Scores

end
-- ==== Proof.KI.Run.lean ====
/-
  The run of the program, and its frame.

  The program is one pipelined region. Its two input windows read the one argument array, so at the region's entry
  the array's full share is dealt to them half and half, and the result array goes to the output window outright;
  there is no other buffer. The region's rule then gives, for every weakly fair execution from a memory with zero
  semaphore counters: it ends, nothing faults, and each window's array holds what the write-backs of the proof data
  compute. An input window's array is never written, so the argument array ends as it began: the frame.
-/
import proofs.«142494_g5858335392468_pilotgen1_76_6_alg».proof.Proof.KI.Body
import Idealize.ShloMosaic.Lib.Pipeline.Launch

noncomputable section

namespace Cert.KernelIdeal.Scores

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The two buffers behind the three windows, each whole at the full share, are the windows' arrays at their shares:
    the argument array's full share is its left half, for the row-block window, and its right half, for the
    whole-array window; the result array is the output window's. -/
theorem split_arrays (c : Dev nD) :
    (Pipeline.arrBufs spec0 c (V m c) : sProp 𝕄) ⊢ (dats m 0 c).arrays ((dats m 0 c).arrAt · 0) := by
  have hA : (dats m 0 c).arrays ((dats m 0 c).arrAt · 0)
      = bigSep Finset.univ fun w : Fin 3 =>
          ((((c.tc : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  have hB : (Pipeline.arrBufs spec0 c (V m c) : sProp 𝕄)
      = iprop((((c.tc : Thread nD τ).loc main_arg0) ↦{fullShare} V m c main_arg0)
          ∗ (((c.tc : Thread nD τ).loc main_v0) ↦{fullShare} V m c main_v0)) := by
    unfold Pipeline.arrBufs
    rw [show Finset.univ.image (Pipeline.arrRef spec0) = {main_arg0, main_v0} from by decide,
      BI.bigSep_insert (by decide), BI.bigSep_singleton]
    rfl
  rw [hA, bigSep_W0, hB]
  iintro ⟨Ha, Ho⟩
  ihave Ha := (pointsTo_share (PosShare.mem_left_op_right fullShare)).1 $$ Ha
  icases Ha with ⟨Hl, Hr⟩
  isplitl [Hl]; · iexact Hl
  isplitl [Hr]; · iexact Hr
  iexact Ho

/-! ## The run -/

/-- After the run every window's array holds what the proof data's write-backs compute. -/
def RunPost (r : PUnit × MemSt nD τ sig (Elt F)) : Prop :=
  ∀ (c : Dev nD) (w : Fin 3), r.2.mem ((spec0 w).arr.view.loc (c.tc : Thread nD τ)) = (dats m 0 c).arrAt w cfg0.N

set_option backward.isDefEq.respectTransparency.types false in
/-- At the compiled mesh, from any memory with zero counters: every weakly fair execution terminates, nothing
    faults, and the final memory satisfies `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m)
    (hmain := hmain m Variants.none)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.KernelIdeal.Scores.run_main' depends on axioms: [propext, Classical.choice, Quot.sound] -/
#guard_msgs in #print axioms run_main

/-! ## The frame -/

/-- The argument array ends as it began: it is only ever an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans ((dats m 0 c).arrAt_in 0 rfl _)).trans (A_eq m c 0)) (run_main m ρ)

end Cert.KernelIdeal.Scores

end
-- ==== Proof.Gram.lean ====
/-
  The matrix both programs compute: the Gram matrix of the rows of `h` with its diagonal cleared.

  For `h` of 8192 rows of 128 extended reals, entry `(i, j)` is the inner product `∑ k, h[i, k] · h[j, k]` when
  `i ≠ j` and `0` when `i = j`. One program reaches the `0` by selecting it where the row and column numbers
  coincide; the other multiplies the inner product by `1 − [i = j]`. On the extended reals `S · 1 = S` and
  `S · 0 = 0` for EVERY `S`, the infinities included, so the two agree with no assumption on `h`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Gram

open Idealize.ShloMosaic Idealize.ShloMosaic.ValueIdx

/-- 8192 rows of 128. -/
abbrev SRows : Shape := ⟨2, ![8192, 128]⟩
/-- 8192 × 8192. -/
abbrev SGram : Shape := ⟨2, ![8192, 8192]⟩

/-- The inner product of rows `r` and `s`. -/
def rowDot (h : SRows.Idx → EReal) (r s : Fin 8192) : EReal := ∑ k : Fin 128, h (ix2 r k) * h (ix2 s k)

/-- The Gram matrix of the rows with its diagonal cleared. -/
def gram0 (h : SRows.Idx → EReal) : SGram.Idx → EReal := fun i =>
  if (i 0).val = (i 1).val then 0 else rowDot h ⟨(i 0).val, (i 0).isLt⟩ ⟨(i 1).val, (i 1).isLt⟩

/-- Two numbers below `2³²` are equal exactly when their 32-bit words are: the comparison word of the words is the
    truth value of the equation. -/
theorem cmpi_eq_word {a b : ℕ} (ha : a < 2 ^ 32) (hb : b < 2 ^ 32) :
    IntOp.cmpi .eq (BitVec.ofNat 32 a) (BitVec.ofNat 32 b) = if a = b then 1#1 else 0#1 := by
  by_cases h : a = b
  · subst h; rw [if_pos rfl]; exact StableHlo.Predicate.cmpi_eq_iff.mpr rfl
  · rw [if_neg h]
    refine eq_zero_of_ne_one fun h1 => h ?_
    have e := congrArg BitVec.toNat (StableHlo.Predicate.cmpi_eq_iff.mp h1)
    rwa [BitVec.toNat_ofNat, BitVec.toNat_ofNat, Nat.mod_eq_of_lt ha, Nat.mod_eq_of_lt hb] at e

/-- The pattern of `1.0` denotes the number one. -/
theorem one_f32 : Ideal.ofBits .f32 0x3F800000#32 = 1 := by
  simp [Ideal.ofBits, Ideal.ieee, -EReal.coe_mul]; norm_num

/-- A truth value read as a number is `1` or `0`. -/
theorem uitofp_bit (p : Prop) [Decidable p] :
    FloatOps.uitofp (F := Ideal) .f32 (if p then 1#1 else 0#1) = if p then 1 else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-- Multiplying by `1 − [p]` clears the value where `p` holds and keeps it elsewhere, for every extended real. -/
theorem mul_one_sub_bit (S : EReal) (p : Prop) [Decidable p] :
    S * (1 - (if p then (1 : EReal) else 0)) = if p then 0 else S := by
  by_cases h : p
  · rw [if_pos h, if_pos h, sub_self_one]
    exact mul_zero S
  · rw [if_neg h, if_neg h, sub_zero, mul_one]
where
  sub_self_one : (1 : EReal) - 1 = 0 := by
    rw [show (1 : EReal) = ((1 : ℝ) : EReal) from rfl, ← EReal.coe_sub, sub_self]; rfl

end Cert.Gram

end
-- ==== Proof.KI.Value.lean ====
/-
  The output band of one grid point, index by index, and the result array after the run.

  At the band index `(p, j)` of the point with coordinate `T` the body leaves the inner product of the block's row
  `p` with row `j` of the whole array — the matrix product contracts the 128 columns of both operands — except on
  the 256 × 256 square that starts at column `256 T`, where the entry whose row and column numbers inside the square
  coincide is `0`. The block's row `p` is row `256 T + p` of the array, and "inside the square, `p` equals the
  column number less `256 T`" says exactly `256 T + p = j`: the band is rows `256 T … 256 T + 255` of the
  cleared-diagonal Gram matrix. The 32 bands tile the result array, so after the run it IS that matrix.
-/
import proofs.«142494_g5858335392468_pilotgen1_76_6_alg».proof.Proof.KI.Run
import proofs.«142494_g5858335392468_pilotgen1_76_6_alg».proof.Proof.Gram
import Idealize.ShloMosaic.Lib.Pipeline.Value
import Idealize.ShloMosaic.Lib.ValueIdx
import Idealize.ShloMosaic.PureOps.Ideal.Laws

set_option maxRecDepth 16384

noncomputable section

namespace Cert.KernelIdeal.Scores

open Cert.KernelIdeal Cert.KernelIdeal.Gen Cert.Gram
open Idealize.ShloMosaic Idealize.ShloMosaic.TcCoe Idealize.ShloMosaic.ValueIdx
open Idealize.SL Idealize.SL.Sem
open Idealize.ShloMosaic.Pipeline (Dat Cfg Window)

/-! ## The product's operand indices -/

theorem lhs_axis0 (j : S256x8192.Idx) (q : dot_S256x128_S8192x128_S256x8192_1_1_0_0_n_n.contr.Idx) :
    (dot_S256x128_S8192x128_S256x8192_1_1_0_0_n_n.lhsIdx j q 0).val = (j 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem lhs_axis1 (j : S256x8192.Idx) (q : dot_S256x128_S8192x128_S256x8192_1_1_0_0_n_n.contr.Idx) :
    (dot_S256x128_S8192x128_S256x8192_1_1_0_0_n_n.lhsIdx j q 1).val = (q ⟨0, by decide⟩).val :=
  dot_S256x128_S8192x128_S256x8192_1_1_0_0_n_n.lhsIdx_val_of_single rfl j q
theorem rhs_axis0 (j : S256x8192.Idx) (q : dot_S256x128_S8192x128_S256x8192_1_1_0_0_n_n.contr.Idx) :
    (dot_S256x128_S8192x128_S256x8192_1_1_0_0_n_n.rhsIdx j q 0).val = (j 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem rhs_axis1 (j : S256x8192.Idx) (q : dot_S256x128_S8192x128_S256x8192_1_1_0_0_n_n.contr.Idx) :
    (dot_S256x128_S8192x128_S256x8192_1_1_0_0_n_n.rhsIdx j q 1).val = (q ⟨0, by decide⟩).val :=
  dot_S256x128_S8192x128_S256x8192_1_1_0_0_n_n.rhsIdx_val_of_single rfl j q

/-! ## The two payloads at an index -/

/-- The band of products at `(p, j)`: the inner product of row `p` of the first operand with row `j` of the second. -/
theorem prod_apply (x0 : Vec Ideal S256x128 .f32) (x1 : Vec Ideal S8192x128 .f32) (j : S256x8192.Idx) :
    k0_pay1 (F := Ideal) x0 x1 j
      = ∑ k : Fin 128, x0 (ix2 (⟨(j 0).val, idx2_lt0 j⟩ : Fin 256) k) * x1 (ix2 (⟨(j 1).val, idx2_lt1 j⟩ : Fin 8192) k) := by
  unfold k0_pay1
  simp only [matmul]
  rw [Ideal.matmul_constant_zero_apply, ← Equiv.sum_comp (contrEquiv1 dot_S256x128_S8192x128_S256x8192_1_1_0_0_n_n 128 rfl rfl).symm]
  refine Finset.sum_congr rfl fun k _ => ?_
  have hk := contrEquiv1_symm_val dot_S256x128_S8192x128_S256x8192_1_1_0_0_n_n 128 rfl rfl k
  have el : dot_S256x128_S8192x128_S256x8192_1_1_0_0_n_n.lhsIdx j ((contrEquiv1 dot_S256x128_S8192x128_S256x8192_1_1_0_0_n_n 128 rfl rfl).symm k) = ix2 (⟨(j 0).val, idx2_lt0 j⟩ : Fin 256) k := funext fun a => Fin.ext (by
    match a with
    | ⟨0, _⟩ => exact lhs_axis0 _ _
    | ⟨1, _⟩ => exact (lhs_axis1 _ _).trans hk)
  have er : dot_S256x128_S8192x128_S256x8192_1_1_0_0_n_n.rhsIdx j ((contrEquiv1 dot_S256x128_S8192x128_S256x8192_1_1_0_0_n_n 128 rfl rfl).symm k) = ix2 (⟨(j 1).val, idx2_lt1 j⟩ : Fin 8192) k := funext fun a => Fin.ext (by
    match a with
    | ⟨0, _⟩ => exact rhs_axis0 _ _
    | ⟨1, _⟩ => exact (rhs_axis1 _ _).trans hk)
  rw [el, er]

/-- The square with its diagonal cleared: `0` where the two coordinates coincide, the square's entry elsewhere. -/
theorem clear_apply (v : Vec Ideal S256x256 .f32) (x : S256x256.Idx) :
    k0_pay2 (F := Ideal) v x = if (x 0).val = (x 1).val then 0 else v x := by
  have h0 : (x 0).val < 2 ^ 32 := lt_trans (idx2_lt0 x) (by norm_num)
  have h1 : (x 1).val < 2 ^ 32 := lt_trans (idx2_lt1 x) (by norm_num)
  unfold k0_pay2
  dsimp only
  rw [select_apply, shapeCast_self, broadcast_apply]
  show Scalar.select (IntOp.cmpi .eq (iota .tc S256x256 32 [0] iota_S256x256_d0_w32 x) (iota .tc S256x256 32 [1] iota_S256x256_d1_w32 x)) _ _ = _
  rw [iota_single_apply, iota_single_apply, cmpi_eq_word h0 h1]
  by_cases h : (x 0).val = (x 1).val
  · rw [if_pos h, if_pos h, select_one]; exact Ideal.ofBits_zero_f32
  · rw [if_neg h, if_neg h, select_zero]

/-! ## The band at an index -/

theorem hz : (![0, 0] : Fin 2 → Nat) = fun _ => 0 := funext fun a => by fin_cases a <;> rfl

/-- The square of products with its diagonal cleared, as the store that lays it over the band. -/
abbrev clearedSquare (i : grid0.Coords) (x0 : Vec Ideal S256x128 .f32) (x1 : Vec Ideal S8192x128 .f32) :
    View.Piece (Elt Ideal) S256x8192 .f32 :=
  ⟨rDiag i, k0_pay2 (fun j => View.canon (prodPieces x0 x1) ((rDiag i).toLoadRect.idx j))⟩

/-- The band the body leaves, at `(p, j)`, when the diagonal square starts at column `o`: `0` where `j` lies in
    the square and `p` is its column number there, the inner product of rows `p` and `j` elsewhere. -/
theorem bandOut_apply (i : grid0.Coords) (o : ℕ) (ho0 : k0_off1 i 0 = 0) (ho1 : k0_off1 i 1 = o)
    (x0 : Vec Ideal S256x128 .f32) (x1 : Vec Ideal S8192x128 .f32) (y : S256x8192.Idx) :
    bandOut (F := Ideal) i x0 x1 y
      = if o ≤ (y 1).val ∧ (y 1).val < o + 256 ∧ o + (y 0).val = (y 1).val then 0
        else ∑ k : Fin 128, x0 (ix2 (⟨(y 0).val, idx2_lt0 y⟩ : Fin 256) k) * x1 (ix2 (⟨(y 1).val, idx2_lt1 y⟩ : Fin 8192) k) := by
  have hprod : ∀ z : S256x8192.Idx, View.canon (prodPieces (F := Ideal) x0 x1) z
      = ∑ k : Fin 128, x0 (ix2 (⟨(z 0).val, idx2_lt0 z⟩ : Fin 256) k) * x1 (ix2 (⟨(z 1).val, idx2_lt1 z⟩ : Fin 8192) k) := fun z => by
    unfold prodPieces
    rw [View.canon_unit_zero hz]
    simp only [View.ld_unit_zero (S := S256x128) hz, View.ld_unit_zero (S := S8192x128) hz]
    exact prod_apply x0 x1 z
  unfold bandOut
  show View.canon (clearedSquare i x0 x1 :: prodPieces x0 x1) y = _
  by_cases hm : y ∈ (rDiag i).set
  · obtain ⟨x, rfl⟩ := (rDiag i).exists_idx_of_mem hm
    rw [show (rDiag i).idx x = (rDiag i).emb x from rfl]
    unfold clearedSquare
    rw [View.canon_cons_emb, clear_apply]
    have e0 : (((rDiag i).emb x) 0).val = (x 0).val := by
      show k0_off1 i 0 + 1 * (x 0).val = _; rw [ho0]; omega
    have e1 : (((rDiag i).emb x) 1).val = o + (x 1).val := by
      show k0_off1 i 1 + 1 * (x 1).val = _; rw [ho1]; omega
    have hx1 : (x 1).val < 256 := idx2_lt1 x
    by_cases hd : (x 0).val = (x 1).val
    · rw [if_pos hd, if_pos (by rw [e0, e1]; omega)]
    · rw [if_neg hd, if_neg (by rw [e0, e1]; omega)]
      exact hprod _
  · rw [View.canon_cons_of_not_mem (clearedSquare i x0 x1) (prodPieces x0 x1) hm, hprod, if_neg]
    rintro ⟨h1, h2, h3⟩
    refine hm (Rect.mem_set_unit.mpr fun a => ?_)
    have hy0 : (y 0).val < 256 := idx2_lt0 y
    match a with
    | ⟨0, _⟩ => show k0_off1 i 0 ≤ (y 0).val ∧ (y 0).val < k0_off1 i 0 + 256; rw [ho0]; omega
    | ⟨1, _⟩ => show k0_off1 i 1 ≤ (y 1).val ∧ (y 1).val < k0_off1 i 1 + 256; rw [ho1]; omega

/-- The band of the point with coordinate `T` is rows `256 T … 256 T + 255` of the cleared-diagonal Gram matrix of
    `h`, when the first operand is that block of rows of `h` and the second is `h`. -/
theorem band_eq_gram (h : SRows.Idx → EReal) (T : ℕ) (hT : T < 32) (i : grid0.Coords)
    (ho0 : k0_off1 i 0 = 0) (ho1 : k0_off1 i 1 = 256 * T)
    (x0 : Vec Ideal S256x128 .f32) (x1 : Vec Ideal S8192x128 .f32)
    (hx0 : ∀ (p : Fin 256) (k : Fin 128), x0 (ix2 p k) = h (ix2 (⟨256 * T + p.val, by omega⟩ : Fin 8192) k))
    (hx1 : ∀ (r : Fin 8192) (k : Fin 128), x1 (ix2 r k) = h (ix2 r k))
    (y : S256x8192.Idx) (z : SGram.Idx) (hz0 : (z 0).val = 256 * T + (y 0).val) (hz1 : (z 1).val = (y 1).val) :
    bandOut (F := Ideal) i x0 x1 y = gram0 h z := by
  rw [bandOut_apply i (256 * T) ho0 ho1]
  unfold gram0 rowDot
  have hy0 : (y 0).val < 256 := idx2_lt0 y
  by_cases hd : (z 0).val = (z 1).val
  · rw [if_pos hd, if_pos (by omega)]
  · rw [if_neg hd, if_neg (by omega)]
    refine Finset.sum_congr rfl fun k _ => ?_
    rw [hx0, hx1]
    congr 2 <;> exact congrArg (fun r => ix2 r k) (Fin.ext (by simp only; omega))

/-! ## From the bands to the array -/

variable (m : (ℓ : Loc nD τ sig) → Buf (Elt Ideal) ℓ) (ρ : Dev nD → PrngReg)

/-- The index maps and the square's offset, decided once over the 32 grid points: the row block and the output band
    sit at block `t` of their first axis, the whole array at block `0`, and the square starts at column `256 t`. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ k0_off1 (grid0.coords t) 0 = 0 ∧ k0_off1 (grid0.coords t) 1 = 256 * t.val :=
  (by decide +kernel : ∀ t : Fin grid0.N, _)

/-- What point `t` writes back is block `t` of the cleared-diagonal Gram matrix of the argument array. -/
theorem flushed_eq (c : Dev nD) (t : Fin cfg0.N) :
    (dats m 0 c).flushed 2 t = ((cfg0.win 2).blk t).view.read (Elt Ideal) (gram0 (V m c main_arg0)) := by
  show (cfg0.win 2).cut (grid0.coords t) ((dats m 0 c).after 2 t) = _
  rw [after0_2]
  obtain ⟨a0, a1, b0, b1, o0, o1, f0, f1⟩ := grid_facts t
  have ht : t.val < 32 := lt_of_lt_of_eq t.isLt N_0
  funext j
  show bandOut (grid0.coords t) (iblk m c 0 t) (iblk m c 1 t) j = gram0 (V m c main_arg0) (((cfg0.win 2).blk t).view.emb j)
  refine band_eq_gram (V m c main_arg0) t.val ht (grid0.coords t) f0 f1 (iblk m c 0 t) (iblk m c 1 t) ?_ ?_ j _ ?_ ?_
  · intro p k
    show V m c main_arg0 (((cfg0.win 0).blk t).view.emb (ix2 p k)) = V m c main_arg0 _
    refine congrArg _ (funext fun a => Fin.ext ?_)
    match a with
    | ⟨0, _⟩ => show win0_0.index t (0 : Fin 2) * 256 + 1 * p.val = 256 * t.val + p.val; omega
    | ⟨1, _⟩ => show win0_0.index t (1 : Fin 2) * 128 + 1 * k.val = k.val; omega
  · intro r k
    show V m c main_arg0 (((cfg0.win 1).blk t).view.emb (ix2 r k)) = V m c main_arg0 _
    refine congrArg _ (funext fun a => Fin.ext ?_)
    match a with
    | ⟨0, _⟩ => show win0_1.index t (0 : Fin 2) * 8192 + 1 * r.val = r.val; omega
    | ⟨1, _⟩ => show win0_1.index t (1 : Fin 2) * 128 + 1 * k.val = k.val; omega
  · show win0_2.index t (0 : Fin 2) * 256 + 1 * (j 0).val = 256 * t.val + (j 0).val; omega
  · show win0_2.index t (1 : Fin 2) * 8192 + 1 * (j 1).val = (j 1).val; omega

/-- An index of the result array is in point `t`'s band iff each coordinate is in the band's range on its axis. -/
theorem mem_band (t : Fin cfg0.N) (i : S8192x8192.Idx) :
    i ∈ ((cfg0.win 2).blk t).view.set ↔ ∀ a : Fin 2, win0_2.index t a * S256x8192.size a ≤ (i a).val ∧ (i a).val < win0_2.index t a * S256x8192.size a + S256x8192.size a := by
  show i ∈ ((View.whole main_v0).slice (win0_2.rect t)).set ↔ _
  rw [View.set_slice_whole, Rect.mem_set_unit]
  exact Iff.rfl

/-- Row `r` of the result lies in the band of point `r / 256`: the bands cover the array. -/
theorem cover (i : S8192x8192.Idx) :
    ∃ t : Fin cfg0.N, (cfg0.win 2).flush t = true ∧ i ∈ ((cfg0.win 2).blk t).view.set := by
  have hi0 : (i 0).val < 8192 := idx2_lt0 i
  have hi1 : (i 1).val < 8192 := idx2_lt1 i
  obtain ⟨t, ht⟩ : ∃ t : Fin cfg0.N, t.val = (i 0).val / 256 :=
    ⟨⟨(i 0).val / 256, by show _ < grid0.N; rw [N_0]; omega⟩, rfl⟩
  obtain ⟨-, -, -, -, o0, o1, -, -⟩ := grid_facts t
  refine ⟨t, flush0_2 t, (mem_band t i).mpr fun a => ?_⟩
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8192 ≤ (i 1).val ∧ (i 1).val < win0_2.index t (1 : Fin 2) * 8192 + 8192; omega

/-- The result array after the run is the cleared-diagonal Gram matrix of the argument array. -/
theorem final (c : Dev nD) : (dats m 0 c).arrAt 2 cfg0.N = gram0 (m ((c : Thread nD τ).loc main_arg0)) :=
  (dats m 0 c).arrAt_eq_of_cover 2 (gram0 (V m c main_arg0)) (fun t _ => flushed_eq m c t) cover

/-- The run re-posted: the result array at the cleared-diagonal Gram matrix of the argument, the argument unchanged. -/
theorem run : θ_run defs (onTc (τ := τ) (main (F := Ideal))) ⟨m, fun _ => 0, ρ⟩ fun r => ∀ c : Dev nD,
      r.2.mem ((c : Thread nD τ).loc main_v0) = gram0 (m ((c : Thread nD τ).loc main_arg0))
      ∧ r.2.mem ((c : Thread nD τ).loc main_arg0) = m ((c : Thread nD τ).loc main_arg0) :=
  (θ_run defs _ _).mono (fun _ h c => ⟨(h c 2).trans (final m c),
      ((h c 0).trans ((dats m 0 c).arrAt_in 0 rfl _)).trans (A_eq m c 0)⟩) (run_main m ρ)

end Cert.KernelIdeal.Scores

end
-- ==== Proof.Ref.lean ====
/-
  The reference computes the cleared-diagonal Gram matrix.

  Its program transposes `h`, multiplies `h` by the transpose (entry `(i, j)` is `∑ k, h[i, k] · hᵀ[k, j]`, and
  `hᵀ[k, j] = h[j, k]`), builds the identity matrix as the comparison of the row number with the column number read
  as a number, and multiplies the product by one minus it. Read index by index that is `S · (1 − [i = j])` with `S`
  the inner product of rows `i` and `j`, which is `0` on the diagonal and `S` off it.
-/
import proofs.«142494_g5858335392468_pilotgen1_76_6_alg».proof.Proof.Gen.ReferenceIdeal.Run
import proofs.«142494_g5858335392468_pilotgen1_76_6_alg».proof.Proof.Gen.ReferenceIdeal.Read
import proofs.«142494_g5858335392468_pilotgen1_76_6_alg».proof.Proof.Gram

noncomputable section

namespace Cert.ReferenceIdeal.RefValue

open Cert.ReferenceIdeal Cert.ReferenceIdeal.Gen Cert.ReferenceIdeal.Read Cert.Gram
open Idealize.ShloMosaic Idealize.ShloMosaic.ValueIdx

/-- The left factor of term `k` of entry `i` is `h[i₀, k]`. -/
theorem left_factor (i : S8192x8192.Idx) (k : Fin 128) :
    lidx_main_v1 i k = ix2 (⟨(i 0).val, idx2_lt0 i⟩ : Fin 8192) k :=
  funext fun a => match a with | ⟨0, _⟩ => rfl | ⟨1, _⟩ => rfl

/-- The right factor, read through the transpose, is `h[i₁, k]`. -/
theorem right_factor (i : S8192x8192.Idx) (k : Fin 128) :
    idx_main_v0 (ridx_main_v1 i k) = ix2 (⟨(i 1).val, idx2_lt1 i⟩ : Fin 8192) k :=
  funext fun a => match a with | ⟨0, _⟩ => rfl | ⟨1, _⟩ => rfl

/-- The reference's result, as a function of the argument array, is the cleared-diagonal Gram matrix. -/
theorem result_eq (x0 : FVec Ideal S8192x128 .f32) : val_main_v10 (F := Ideal) x0 = gram0 x0 := by
  funext i
  have h0 : (i 0).val < 2 ^ 32 := lt_trans (idx2_lt0 i) (by norm_num)
  have h1 : (i 1).val < 2 ^ 32 := lt_trans (idx2_lt1 i) (by norm_num)
  rw [val_main_v10_apply, val_main_v1_apply, val_main_v9_apply, val_main_v8_apply, val_main_cst_apply,
    val_main_v7_apply, val_main_v6_apply, val_main_v5_apply, val_main_v2_apply, val_main_v4_apply, val_main_c_apply,
    val_main_v3_apply]
  simp only [val_main_v0_apply, left_factor, right_factor]
  rw [show IntOp.addi (BitVec.ofNat 32 (i 0).val) 0#32 = BitVec.ofNat 32 (i 0).val from BitVec.add_zero _,
    cmpi_eq_word h0 h1, uitofp_bit]
  simp only [Ideal.mulf_def, Ideal.subf_def, Ideal.ofBits_def, one_f32]
  rw [mul_one_sub_bit]
  rfl

end Cert.ReferenceIdeal.RefValue

end
-- ==== Proof.lean ====
/-
  The kernel and its reference compute the same matrix: the Gram matrix of the rows of `h` (8192 rows of 128 numbers)
  with its diagonal cleared.

  The kernel is one pipelined region of 32 grid points; point `t` multiplies rows `256 t … 256 t + 255` of `h` by all
  of `hᵀ` into a 256 × 8192 band of the result and then clears the band's stretch of the diagonal by a select on the
  256 × 256 square the diagonal crosses (Proof/KI/Body.lean: what the body leaves; Proof/KI/Run.lean: the run and the
  frame; Proof/KI/Value.lean: the band index by index, and the result array; Proof/K: the same frame for the
  word-level program). The reference multiplies `h hᵀ` by one minus the identity matrix (Proof/Ref.lean). On the
  extended reals both are `0` where the row and column numbers coincide and the inner product of the two rows
  elsewhere (Proof/Gram.lean), for every input: `S · 0 = 0` and `S · 1 = S` hold at the infinities too, so the
  precondition is not used.

  The three frames: each program terminates on every weakly fair execution, faults nowhere, and leaves `h` as it
  was — the kernels' because `h` is only ever an input window's array, the reference's because its operations
  write fresh buffers. The idealization rewrote nothing, so it preserves the kernel trivially.
-/
import proofs.«142494_g5858335392468_pilotgen1_76_6_alg».proof.Defs
import proofs.«142494_g5858335392468_pilotgen1_76_6_alg».proof.Proof.Gen.Kernel
import proofs.«142494_g5858335392468_pilotgen1_76_6_alg».proof.Proof.Gen.KernelIdeal
import proofs.«142494_g5858335392468_pilotgen1_76_6_alg».proof.Proof.Gen.ReferenceIdeal
import proofs.«142494_g5858335392468_pilotgen1_76_6_alg».proof.Proof.Gen.Pre_finite_inputs
import proofs.«142494_g5858335392468_pilotgen1_76_6_alg».proof.Proof.K.Run
import proofs.«142494_g5858335392468_pilotgen1_76_6_alg».proof.Proof.KI.Value
import proofs.«142494_g5858335392468_pilotgen1_76_6_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves `h` unchanged. -/
theorem frame_kernel : Cert.frame_Kernel := fun m ρ _ => Cert.Kernel.Scores.frame m ρ

/-- So does its idealization. -/
theorem frame_kernelIdeal : Cert.frame_KernelIdeal := fun m ρ _ => Cert.KernelIdeal.Scores.frame m ρ

/-- The reference runs and leaves `h` unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `h`, both idealized programs end with the cleared-diagonal Gram matrix of `h` in their
    result arrays. -/
theorem algebraic : Cert.algebraic_KernelIdeal_ReferenceIdeal := by
  intro m ρ m' ρ' _ hagree
  refine ⟨fun c => Cert.Gram.gram0 (m ((c.tc : Thread Cert.KernelIdeal.nD Cert.KernelIdeal.τ).loc Cert.KernelIdeal.main_arg0)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
